-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  main_v18

def fn {F : FTy → Type} [FloatOps F] (main_arg0 : FVec F S50000x128 .f32) (main_arg1 : FVec F S128x128 .f32) (main_arg2 : FVec F S128 .f32) (main_arg3 : FVec F S800000 .f32) (main_arg4 : IVec S800000 32) (main_arg5 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S800000 .f32 := Host.absf main_arg3
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S10000x128 : Shape := ⟨2, ![10000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩

abbrev nBuf : Space → Nat
  | .hbm => 25
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S50000x128, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S1x128, .f32⟩
  | .hbm, ⟨24, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  dot_S10000x128_S128x128_S10000x128_1_0_0_1_n_n_wf : DotDims.WF S10000x128 S128x128 S10000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S50000x128, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S50000x128, .f32⟩
  | .hbm, ⟨28, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  What the program computes, as functions of whole arrays at the exact instance (a float an extended real).

  A graph convolution over 50000 nodes with 128 features: first the dense transform `h = x · W`
  (entry (r, c) is the sum over k of x[r, k] · W[k, c]); then, between the two, a sparse product with the
  adjacency given as 800000 (row, col, value) triples — gather h's rows at `col`, scale by `vals`, add into rows `row` —
  which both programs spell with the same host operations and which is therefore carried here as an unopened
  function of `h`; last, per entry, the bias of the entry's column is added and the result clamped below at zero.
-/
import Idealize.ShloMosaic.PureOps.Ideal
import Idealize.ShloMosaic.PureOps.Ideal.Laws
import Idealize.ShloMosaic.Lib.ValueIdx

noncomputable section

open Idealize.ShloMosaic

namespace Cert.Spec

/-- Node features and every node-by-feature array: 50000 rows, 128 columns. -/
abbrev SN : Shape := ⟨2, ![50000, 128]⟩
/-- The weight matrix. -/
abbrev SW : Shape := ⟨2, ![128, 128]⟩
/-- The bias, one entry per output feature. -/
abbrev SV : Shape := ⟨1, ![128]⟩

/-- Entry (r, k) of the features, for the output entry `i = (r, c)`. -/
abbrev xAt (i : SN.Idx) (k : Fin 128) : SN.Idx := fun a => match a with
  | ⟨0, _⟩ => ⟨(i 0).val, (i 0).isLt⟩
  | ⟨1, _⟩ => ⟨k.val, k.isLt⟩
/-- Entry (k, c) of the weights, for the output entry `i = (r, c)`. -/
abbrev wAt (i : SN.Idx) (k : Fin 128) : SW.Idx := fun a => match a with
  | ⟨0, _⟩ => ⟨k.val, k.isLt⟩
  | ⟨1, _⟩ => ⟨(i 1).val, (i 1).isLt⟩
/-- The bias entry of the column of `i = (r, c)`. -/
abbrev bAt (i : SN.Idx) : SV.Idx := fun a => match a with
  | ⟨0, _⟩ => ⟨(i 1).val, (i 1).isLt⟩

/-- The dense transform `x · W`: entry (r, c) is `∑ k, x[r, k] · W[k, c]`. -/
def dense (x : FVec Ideal SN .f32) (w : FVec Ideal SW .f32) : FVec Ideal SN .f32 :=
  fun i => ∑ k : Fin 128, x (xAt i k) * w (wAt i k)

/-- Bias and clamp: entry (r, c) is `max (s[r, c] + b[c]) 0`. -/
def biasRelu (s : FVec Ideal SN .f32) (b : FVec Ideal SV .f32) : FVec Ideal SN .f32 :=
  fun i => FloatOps.maximumf (FloatOps.addf (s i) (b (bAt i))) (FloatOps.ofBits .f32 0x00000000#32)

end Cert.Spec

end
-- ==== Proof.Dense.lean ====
/-
  The first region: the row-blocked matrix product. The grid has five points; point `t` reads rows
  `10000·t … 10000·t + 9999` of the features and the whole weight matrix, and writes the same rows of `h`.
  At the exact instance a change of float format is the identity and a product into a zero accumulator is the plain sum over
  the contracted axis, so what a point writes back is its rows of `x · W`; the five row blocks tile the array, so after the
  region the array holds `x · W`.
-/
import proofs.«104966_j43018392437371_1_alg».proof.Proof.Gen.KernelIdeal.Frame
import proofs.«104966_j43018392437371_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Dense

open Cert.KernelIdeal Cert.KernelIdeal.Gen Cert.Spec

/-! ## The body's product at an entry of the block -/

theorem lhs_blk_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_blk_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_blk_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_blk_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry (r, k) of the feature block, for the block's output entry `j = (r, c)`. -/
abbrev xb (j : S10000x128.Idx) (k : Fin 128) : S10000x128.Idx := fun a => match a with
  | ⟨0, _⟩ => ⟨(j 0).val, (j 0).isLt⟩
  | ⟨1, _⟩ => ⟨k.val, k.isLt⟩
/-- Entry (k, c) of the weights, for the block's output entry `j = (r, c)`. -/
abbrev wb (j : S10000x128.Idx) (k : Fin 128) : S128x128.Idx := fun a => match a with
  | ⟨0, _⟩ => ⟨k.val, k.isLt⟩
  | ⟨1, _⟩ => ⟨(j 1).val, (j 1).isLt⟩

/-- What the body stores, at an entry: the sum over the contracted axis of the products of the loaded blocks' entries
    (the narrowing to bf16 is the identity here, the accumulator is zero). -/
theorem pay_apply (x0 : Vec Ideal S10000x128 .f32) (x1 : Vec Ideal S128x128 .f32) (j : S10000x128.Idx) :
    k0_pay1 (F := Ideal) x0 x1 j = ∑ k : Fin 128, x0 (xb j k) * x1 (wb j k) := by
  unfold k0_pay1
  show FloatOps.matmul dot_S10000x128_S128x128_S10000x128_1_0_0_1_n_n none (truncf (F := Ideal) .bf16 x0 bitsLt_bf16_f32) (truncf (F := Ideal) .bf16 x1 bitsLt_bf16_f32) (constant S10000x128 .f32 0x00000000#32) j = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = xb j k := funext fun a => Fin.ext (by
    match a with
    | ⟨0, _⟩ => exact lhs_blk_0 _ _
    | ⟨1, _⟩ => exact (lhs_blk_1 _ _).trans hk)
  have er : dot_S10000x128_S128x128_S10000x128_1_0_0_1_n_n.rhsIdx j ((ValueIdx.contrEquiv1 dot_S10000x128_S128x128_S10000x128_1_0_0_1_n_n 128 rfl rfl).symm k) = wb j k := funext fun a => Fin.ext (by
    match a with
    | ⟨0, _⟩ => exact (rhs_blk_0 _ _).trans hk
    | ⟨1, _⟩ => exact rhs_blk_1 _ _)
  rw [el, er]
  rfl

/-! ## From the blocks to the array -/

theorem hz : (![0, 0] : Fin 2 → Nat) = fun _ => 0 := funext fun a => by fin_cases a <;> rfl

/-- The printed index maps over the five points: the feature window and the output window sit on the same row block,
    in column block 0; the weight window is always block (0, 0); the row block is at most 4. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 4
    ∧ win0_2.index t (1 : Fin 2) = 0 :=
  (by decide +kernel : ∀ t : Fin grid0.N, _)

/-- Every row block is some point's. -/
theorem idx_onto : ∀ q0 : Fin 5, ∃ t : Fin cfg0.N, win0_2.index t = ![q0.val, 0] :=
  (by decide +kernel : ∀ q0 : Fin 5, ∃ t : Fin grid0.N, win0_2.index t = ![q0.val, 0])

variable (V : (c : Dev nD) → (b : Ref sig .tc) → Buf (Elt Ideal) ((c : Thread nD τ).loc b))

/-- What point `t` writes back is block `t` of `x · W` of the two arrays as the region finds them. -/
theorem flushed_eq (c : Dev nD) (t : Fin cfg0.N) :
    (dat0 V c).flushed 2 t = ((cfg0.win 2).blk t).view.read (Elt Ideal) (dense (V c main_arg0) (V c main_arg1)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  funext j
  show k0_pay1 (F := Ideal) (iblk0 V c 0 t) (iblk0 V c 1 t) j = dense (V c main_arg0) (V c main_arg1) (((cfg0.win 2).blk t).view.emb j)
  refine (pay_apply (iblk0 V c 0 t) (iblk0 V c 1 t) j).trans ?_
  unfold dense
  refine Finset.sum_congr rfl fun k _ => ?_
  have hj0 : (j 0).val < 10000 := (j 0).isLt
  have hj1 : (j 1).val < 128 := (j 1).isLt
  have hx : iblk0 V c 0 t (xb j k) = V c main_arg0 (xAt (((cfg0.win 2).blk t).view.emb j) k) := by
    unfold iblk0
    rw [View.read_apply]
    show V c main_arg0 (((cfg0.win 0).blk t).view.emb (xb j k)) = V c main_arg0 (xAt (((cfg0.win 2).blk t).view.emb j) k)
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hw : iblk0 V c 1 t (wb j k) = V c main_arg1 (wAt (((cfg0.win 2).blk t).view.emb j) k) := by
    unfold iblk0
    rw [View.read_apply]
    show V c main_arg1 (((cfg0.win 1).blk t).view.emb (wb j k)) = V c main_arg1 (wAt (((cfg0.win 2).blk t).view.emb j) k)
    refine congrArg (V c main_arg1) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hx, hw]

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- The five row blocks tile the array: row `r` is in block `r / 10000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the region the output array holds `x · W` of the two input arrays as the region found them. -/
theorem final (c : Dev nD) : (dat0 V c).arrAt 2 cfg0.N = dense (V c main_arg0) (V c main_arg1) :=
  (dat0 V c).arrAt_eq_of_cover 2 (dense (V c main_arg0) (V c main_arg1)) (fun t _ => flushed_eq V c t) cover

end Cert.KernelIdeal.Dense

end
-- ==== Proof.BiasRelu.lean ====
/-
  The second region: bias and clamp, row block by row block. Point `t` of its five reads rows
  `10000·t … 10000·t + 9999` of the summed messages and the one row holding the bias, and writes the same rows of the
  result: entry (r, c) is `max (s[r, c] + b[0, c]) 0`. The body's two reshapes keep the shape, its broadcast repeats the bias row
  down the block, so the stored value is that pointwise expression; the five row blocks tile the array.
-/
import proofs.«104966_j43018392437371_1_alg».proof.Proof.Gen.KernelIdeal.Frame
import proofs.«104966_j43018392437371_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.BiasRelu

open Cert.KernelIdeal Cert.KernelIdeal.Gen Cert.Spec

/-- The bias row's entry over column `c`, for the block's entry `j = (r, c)`. -/
abbrev rowb (j : S10000x128.Idx) : S1x128.Idx := fun a => match a with
  | ⟨0, _⟩ => ⟨0, Nat.one_pos⟩
  | ⟨1, _⟩ => ⟨(j 1).val, (j 1).isLt⟩
/-- The same for an entry `i = (r, c)` of the whole array. -/
abbrev rowAt (i : S50000x128.Idx) : S1x128.Idx := fun a => match a with
  | ⟨0, _⟩ => ⟨0, Nat.one_pos⟩
  | ⟨1, _⟩ => ⟨(i 1).val, (i 1).isLt⟩

/-- Bias and clamp with the bias held as a one-row matrix: entry (r, c) is `max (s[r, c] + b[0, c]) 0`. -/
def rowBiasRelu (s : FVec Ideal S50000x128 .f32) (b : FVec Ideal S1x128 .f32) : FVec Ideal S50000x128 .f32 :=
  fun i => FloatOps.maximumf (FloatOps.addf (s i) (b (rowAt i))) (FloatOps.ofBits .f32 0x00000000#32)

/-- What the body stores, at an entry of the block. -/
theorem pay_apply (x0 : FVec Ideal S10000x128 .f32) (x1 : FVec Ideal S1x128 .f32) (j : S10000x128.Idx) :
    k1_pay1 (F := Ideal) x0 x1 j = FloatOps.maximumf (FloatOps.addf (x0 j) (x1 (rowb j))) (FloatOps.ofBits .f32 0x00000000#32) := by
  unfold k1_pay1
  show FloatOps.maximumf (FloatOps.addf (shapeCast S10000x128 x0 shapeCasts_S10000x128_S10000x128 j)
      (broadcastTo S10000x128 (shapeCast S1x128 x1 shapeCasts_S1x128_S1x128) broadcasts_S1x128_S10000x128 j)) _ = _
  rw [shapeCast_self, shapeCast_self,
    broadcastTo_apply x1 broadcasts_S1x128_S10000x128 j (rowb j) (fun a => match a with
      | ⟨0, _⟩ => by show 0 = if (1 : Nat) = 1 then 0 else _; rw [if_pos rfl]
      | ⟨1, _⟩ => by show (j 1).val = if (128 : Nat) = 1 then 0 else (j 1).val; rw [if_neg (by decide)])]
  rfl

theorem hz : (![0, 0] : Fin 2 → Nat) = fun _ => 0 := funext fun a => by fin_cases a <;> rfl

/-- The printed index maps over the five points: the input and the output sit on the same row block, in column
    block 0; the bias window is always block (0, 0); the row block is at most 4. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 4
    ∧ win1_2.index t (1 : Fin 2) = 0 :=
  (by decide +kernel : ∀ t : Fin grid1.N, _)

/-- Every row block is some point's. -/
theorem idx_onto : ∀ q0 : Fin 5, ∃ t : Fin cfg1.N, win1_2.index t = ![q0.val, 0] :=
  (by decide +kernel : ∀ q0 : Fin 5, ∃ t : Fin grid1.N, win1_2.index t = ![q0.val, 0])

variable (V : (c : Dev nD) → (b : Ref sig .tc) → Buf (Elt Ideal) ((c : Thread nD τ).loc b))

/-- What point `t` writes back is block `t` of the pointwise expression of the two arrays as the region finds them. -/
theorem flushed_eq (c : Dev nD) (t : Fin cfg1.N) :
    (dat1 V c).flushed 2 t = ((cfg1.win 2).blk t).view.read (Elt Ideal) (rowBiasRelu (V c main_v13) (V c main_v14)) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  obtain ⟨e0, e1, e2, e3, e4, e5⟩ := idx_facts t
  funext j
  show k1_pay1 (F := Ideal) (iblk1 V c 0 t) (iblk1 V c 1 t) j = rowBiasRelu (V c main_v13) (V c main_v14) (((cfg1.win 2).blk t).view.emb j)
  refine (pay_apply (iblk1 V c 0 t) (iblk1 V c 1 t) j).trans ?_
  unfold rowBiasRelu
  have hj0 : (j 0).val < 10000 := (j 0).isLt
  have hj1 : (j 1).val < 128 := (j 1).isLt
  have hs : iblk1 V c 0 t j = V c main_v13 (((cfg1.win 2).blk t).view.emb j) := by
    unfold iblk1
    rw [View.read_apply]
    show V c main_v13 (((cfg1.win 0).blk t).view.emb j) = V c main_v13 (((cfg1.win 2).blk t).view.emb j)
    refine congrArg (V c main_v13) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have hb : iblk1 V c 1 t (rowb j) = V c main_v14 (rowAt (((cfg1.win 2).blk t).view.emb j)) := by
    unfold iblk1
    rw [View.read_apply]
    show V c main_v14 (((cfg1.win 1).blk t).view.emb (rowb j)) = V c main_v14 (rowAt (((cfg1.win 2).blk t).view.emb j))
    refine congrArg (V c main_v14) (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [hs, hb]

/-- An index of the array is in point `t`'s block iff each coordinate is in the block's range on its axis. -/
theorem mem_blk (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v15).slice (win1_2.rect t)).set ↔ _
  rw [View.set_slice_whole, Rect.mem_set_unit]
  exact Iff.rfl

/-- The five row blocks tile the array: row `r` is in block `r / 10000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After the region the output array holds the pointwise expression of the two input arrays as the region found them. -/
theorem final (c : Dev nD) : (dat1 V c).arrAt 2 cfg1.N = rowBiasRelu (V c main_v13) (V c main_v14) :=
  (dat1 V c).arrAt_eq_of_cover 2 (rowBiasRelu (V c main_v13) (V c main_v14)) (fun t _ => flushed_eq V c t) cover

end Cert.KernelIdeal.BiasRelu

end
-- ==== Proof.Chain.lean ====
/-
  The contents of the buffers the second region reads, through the host operations between the regions. That stretch
  is the sparse adjacency product: the column indices are wrapped (a negative index counts from the end), the rows of
  `h` at those indices are gathered and scaled by the edge values, and the scaled rows are added into the rows the row
  indices name, starting from zero. It is kept here as ONE function `sparse` of `h` and the three edge arrays and never
  opened: the reference applies the same operations. The bias is reshaped to a one-row matrix.
-/
import proofs.«104966_j43018392437371_1_alg».proof.Proof.Gen.KernelIdeal.Frame
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen

/-- The sparse adjacency product as the host operations spell it: wrap the column indices, gather `h`'s rows there,
    scale by the edge values, add into the rows named by the row indices, from zero. -/
def sparse (h : (⟨S50000x128, .f32⟩ : BufTy).Contents (Elt Ideal)) (vals : (⟨S800000, .f32⟩ : BufTy).Contents (Elt Ideal)) (row col : (⟨S800000, .i32⟩ : BufTy).Contents (Elt Ideal)) : (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 row)
    (mulf (broadcastInDim S800000x128 ![0, 1] bcast_S800000x1_S800000x128_0_1 (broadcastInDim S800000x1 ![0] bcast_S800000_S800000x1_0 vals))
      (Host.gather gather_S50000x128_S800000x1_S800000x128_1_0_n_n_0_1_1128 h
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col))))

variable (m : (ℓ : Loc nD τ sig) → Buf (Elt Ideal) ℓ) (ρ : Dev nD → PrngReg)

/-- When the second region is entered its first input array holds the sparse product of what the first region left in
    `h`'s buffer and the three edge arrays as launched. -/
theorem v13_eq (c : Dev nD) : V2 m ρ c main_v13
    = sparse (V1 m ρ c main_v0) (m ((c.tc : Thread nD τ).loc main_arg3)) (m ((c.tc : Thread nD τ).loc main_arg4)) (m ((c.tc : Thread nD τ).loc main_arg5)) := by
  show StableHlo.after hostOps1 (W1 m ρ c) (Proc.devRef .tc main_v13) = _
  after_results
  rw [W1_of_ne m ρ c main_arg3 (by decide), W1_of_ne m ρ c main_arg4 (by decide), W1_of_ne m ρ c main_arg5 (by decide)]
  rfl

/-- and its second the bias as launched, reshaped to one row. -/
theorem v14_eq (c : Dev nD) : V2 m ρ c main_v14 = shapeCast S1x128 (m ((c.tc : Thread nD τ).loc main_arg2)) shapeCasts_S128_S1x128 := by
  show StableHlo.after hostOps1 (W1 m ρ c) (Proc.devRef .tc main_v14) = _
  after_results
  rw [W1_of_ne m ρ c main_arg2 (by decide)]
  rfl

end Cert.KernelIdeal.Chain

end
-- ==== Proof.KernelValue.lean ====
/-
  The idealized kernel's result as the specification's functions. The result buffer is the second region's output array
  after its five write-backs: bias-and-clamp of that region's two input arrays. Its first input is, through the host
  operations between the regions, the sparse product of what the first region left — the dense transform of the features
  and weights as launched — with the edge arrays as launched; its second is the bias as launched, reshaped to one row,
  whose entry over a column is the bias entry of that column.
-/
import proofs.«104966_j43018392437371_1_alg».proof.Proof.RunNamed
import proofs.«104966_j43018392437371_1_alg».proof.Proof.Dense
import proofs.«104966_j43018392437371_1_alg».proof.Proof.BiasRelu
import proofs.«104966_j43018392437371_1_alg».proof.Proof.Chain
import proofs.«104966_j43018392437371_1_alg».proof.Proof.Spec
import Idealize.ShloMosaic.Lib.Pipeline.Value

set_option maxRecDepth 16384

noncomputable section

open Idealize.ShloMosaic Idealize.ShloMosaic.TcCoe Idealize.SL.Sem

namespace Cert.KernelIdeal.KernelValue

open Cert.KernelIdeal Cert.KernelIdeal.Gen Cert.Spec
open Cert.KernelIdeal.Chain (sparse)
open Cert.KernelIdeal.BiasRelu (rowBiasRelu rowAt)

/-- With the bias held as one row (a reshape of the vector), bias-and-clamp is the specification's: the row's entry over
    column `c` is the vector's entry `c`. -/
theorem rowBiasRelu_reshape (s : FVec Ideal S50000x128 .f32) (b : FVec Ideal S128 .f32) :
    rowBiasRelu s (shapeCast S1x128 b shapeCasts_S128_S1x128) = biasRelu s b := by
  funext i
  unfold rowBiasRelu biasRelu
  rw [shapeCast_addUnit_apply (n := 1) ![128] b shapeCasts_S128_S1x128 (rowAt i)]
  have e : (fun a : Fin 1 => rowAt i a.succ) = bAt i := funext fun a => by
    match a with
    | ⟨0, _⟩ => rfl
  rw [e]

variable (m : (ℓ : Loc nD τ sig) → Buf (Elt Ideal) ℓ) (ρ : Dev nD → PrngReg)

/-- What the first region leaves in `h`'s buffer: the dense transform of the features and the weights as launched. -/
theorem h_eq (c : Dev nD) : V1 m ρ c main_v0
    = dense (m ((c.tc : Thread nD τ).loc main_arg0)) (m ((c.tc : Thread nD τ).loc main_arg1)) :=
  (W1_arr m ρ c 2).trans (Dense.final (V0 m ρ) c)

/-- The result buffer's contents at the last segment boundary. -/
theorem result_eq (c : Dev nD) : W3 m ρ c (Proc.devRef .tc main_v15)
    = biasRelu (sparse (dense (m ((c.tc : Thread nD τ).loc main_arg0)) (m ((c.tc : Thread nD τ).loc main_arg1)))
        (m ((c.tc : Thread nD τ).loc main_arg3)) (m ((c.tc : Thread nD τ).loc main_arg4)) (m ((c.tc : Thread nD τ).loc main_arg5)))
        (m ((c.tc : Thread nD τ).loc main_arg2)) := by
  refine (W3_arr m ρ c 2).trans ?_
  rw [BiasRelu.final (V2 m ρ) c, Chain.v13_eq m ρ c, Chain.v14_eq m ρ c, h_eq m ρ c]
  exact rowBiasRelu_reshape _ _

/-- The run, read: the result buffer ends at bias-and-clamp of the sparse product of the dense transform of the arguments as
    launched; the arguments end unchanged. -/
theorem run : θ_run defs (onTc (τ := τ) (main (F := Ideal))) ⟨m, fun _ => 0, ρ⟩ (fun r => ∀ c : Dev nD,
      r.2.mem ((c.tc : Thread nD τ).loc main_v15)
        = biasRelu (sparse (dense (m ((c.tc : Thread nD τ).loc main_arg0)) (m ((c.tc : Thread nD τ).loc main_arg1)))
            (m ((c.tc : Thread nD τ).loc main_arg3)) (m ((c.tc : Thread nD τ).loc main_arg4)) (m ((c.tc : Thread nD τ).loc main_arg5)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m ρ c), (h c).2⟩) (Cert.KernelIdeal.Named.run_named m ρ)

end Cert.KernelIdeal.KernelValue

end
-- ==== Proof.RefValue.lean ====
/-
  The reference's result as the specification's functions. Its first operation is the whole product `x · W` in one
  `dot_general`: entry (r, c) is the sum over k of x[r, k] · W[k, c]. The sparse adjacency product that follows is kept as
  one unopened function of that product and the three edge arrays. Its last three operations broadcast the bias over the
  rows, add it, and take the maximum with zero: entry (r, c) is `max (s[r, c] + b[c]) 0`.
-/
import proofs.«104966_j43018392437371_1_alg».proof.Proof.Gen.ReferenceIdeal.Run
import proofs.«104966_j43018392437371_1_alg».proof.Proof.Gen.ReferenceIdeal.Read
import proofs.«104966_j43018392437371_1_alg».proof.Proof.Spec

noncomputable section

open Idealize.ShloMosaic Idealize.ShloMosaic.TcCoe Idealize.SL.Sem

namespace Cert.ReferenceIdeal.RefValue

open Cert.ReferenceIdeal Cert.ReferenceIdeal.Gen Cert.ReferenceIdeal.Read Cert.Spec

/-- The sparse adjacency product as the host operations spell it: wrap the column indices, gather `h`'s rows there,
    scale by the edge values, add into the rows named by the row indices, from zero. -/
def sparse (h : (⟨S50000x128, .f32⟩ : BufTy).Contents (Elt Ideal)) (vals : (⟨S800000, .f32⟩ : BufTy).Contents (Elt Ideal)) (row col : (⟨S800000, .i32⟩ : BufTy).Contents (Elt Ideal)) : (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 row)
    (mulf (broadcastInDim S800000x128 ![0, 1] bcast_S800000x1_S800000x128_0_1 (broadcastInDim S800000x1 ![0] bcast_S800000_S800000x1_0 vals))
      (Host.gather gather_S50000x128_S800000x1_S800000x128_1_0_n_n_0_1_1128 h
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col))))

/-- The reference's `dot_general` is the dense transform, entry by entry. -/
theorem dense_eq (x0 : (⟨S50000x128, .f32⟩ : BufTy).Contents (Elt Ideal)) (x1 : (⟨S128x128, .f32⟩ : BufTy).Contents (Elt Ideal)) :
    val_main_v0 (F := Ideal) x0 x1 = dense x0 x1 := by
  funext i
  rw [val_main_v0_apply]
  rfl

/-- The scatter's result is the sparse product of the dense transform. -/
theorem v13_eq (x0 : (⟨S50000x128, .f32⟩ : BufTy).Contents (Elt Ideal)) (x1 : (⟨S128x128, .f32⟩ : BufTy).Contents (Elt Ideal)) (x3 : (⟨S800000, .f32⟩ : BufTy).Contents (Elt Ideal)) (x4 x5 : (⟨S800000, .i32⟩ : BufTy).Contents (Elt Ideal)) :
    val_main_v13 (F := Ideal) x0 x1 x3 x4 x5 = sparse (dense x0 x1) x3 x4 x5 := by
  rw [← dense_eq]
  rfl

/-- The reference's result is bias-and-clamp of the sparse product of the dense transform. -/
theorem result_eq (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S800000, .f32⟩ : BufTy).Contents (Elt Ideal)) (x4 x5 : (⟨S800000, .i32⟩ : BufTy).Contents (Elt Ideal)) :
    val_main_v17 (F := Ideal) x0 x1 x2 x3 x4 x5 = biasRelu (sparse (dense x0 x1) x3 x4 x5) x2 := by
  funext i
  rw [val_main_v17_apply, val_main_v16_apply, val_main_v15_apply, val_main_v14_apply, val_main_call0_v0_apply,
    val_main_call0_cst_apply, v13_eq]
  rfl

end Cert.ReferenceIdeal.RefValue

end
-- ==== Proof.lean ====
/-
  The certificate of a graph convolution: `relu (A · (x · W) + b)` over 50000 nodes and 128 features, the adjacency `A`
  given as 800000 (row, col, value) triples.

  The kernel's program runs the dense transform `x · W` as a row-blocked matrix product on bf16 operands, then the sparse
  adjacency product as host operations (gather the rows at `col`, scale by the values, add into the rows at `row`), then
  bias and clamp as a second row-blocked region. The reference does the product in one `dot_general`, the same sparse
  product, and bias and clamp on the host.

  Over the extended reals the narrowing to bf16 is the identity and a product into a zero accumulator is the plain sum, so
  both dense transforms are the function `entry (r, c) = ∑ k, x[r, k] · W[k, c]`; the sparse product is the same operations
  applied to it on both sides; and both ends are `max (s[r, c] + b[c]) 0`. No law of arithmetic beyond `0 + a = a` is
  used, so the inputs' finiteness is not needed.

  The three frames: the two kernel programs' are the generated frame certificates; the reference's is its generated run
  with the result dropped. The idealization rewrote nothing, so there is nothing to preserve.
-/
import proofs.«104966_j43018392437371_1_alg».proof.Defs
import proofs.«104966_j43018392437371_1_alg».proof.Proof.Gen.Kernel
import proofs.«104966_j43018392437371_1_alg».proof.Proof.Gen.Kernel.Skeleton
import proofs.«104966_j43018392437371_1_alg».proof.Proof.Gen.Kernel.Launch
import proofs.«104966_j43018392437371_1_alg».proof.Proof.Gen.Kernel.Points
import proofs.«104966_j43018392437371_1_alg».proof.Proof.Gen.Kernel.Frame
import proofs.«104966_j43018392437371_1_alg».proof.Proof.Gen.KernelIdeal
import proofs.«104966_j43018392437371_1_alg».proof.Proof.Gen.KernelIdeal.Skeleton
import proofs.«104966_j43018392437371_1_alg».proof.Proof.Gen.KernelIdeal.Launch
import proofs.«104966_j43018392437371_1_alg».proof.Proof.Gen.KernelIdeal.Points
import proofs.«104966_j43018392437371_1_alg».proof.Proof.Gen.KernelIdeal.Frame
import proofs.«104966_j43018392437371_1_alg».proof.Proof.Gen.ReferenceIdeal
import proofs.«104966_j43018392437371_1_alg».proof.Proof.Gen.ReferenceIdeal.Run
import proofs.«104966_j43018392437371_1_alg».proof.Proof.Gen.ReferenceIdeal.Read
import proofs.«104966_j43018392437371_1_alg».proof.Proof.Gen.Pre_finite_inputs
import proofs.«104966_j43018392437371_1_alg».proof.Proof.KernelValue
import proofs.«104966_j43018392437371_1_alg».proof.Proof.RefValue
import Idealize.ShloMosaic.Adequacy
import Idealize.ShloMosaic.Init

noncomputable section

namespace Cert.Proof

open Idealize.ShloMosaic Idealize.SL.Sem

/-- The sparse adjacency product is spelt with the same operations in both programs. -/
theorem sparse_eq (h : (⟨Cert.KernelIdeal.S50000x128, .f32⟩ : BufTy).Contents (Elt Ideal))
    (vals : (⟨Cert.KernelIdeal.S800000, .f32⟩ : BufTy).Contents (Elt Ideal))
    (row col : (⟨Cert.KernelIdeal.S800000, .i32⟩ : BufTy).Contents (Elt Ideal)) :
    Cert.ReferenceIdeal.RefValue.sparse h vals row col = Cert.KernelIdeal.Chain.sparse h vals row col := rfl

theorem frame_k : Cert.frame_Kernel :=
  fun m ρ _ => Cert.Kernel.Gen.frame m ρ

theorem frame_ki : Cert.frame_KernelIdeal :=
  fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at bias-and-clamp of the sparse product of the dense transform of arguments that agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5, Cert.ReferenceIdeal.Read.val_main_v17_eq, Cert.ReferenceIdeal.RefValue.result_eq, sparse_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
